-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384 : Shape := ⟨1, ![16384]⟩
abbrev S128x3 : Shape := ⟨2, ![128, 3]⟩
abbrev S128 : Shape := ⟨1, ![128]⟩
abbrev S128x1 : Shape := ⟨2, ![128, 1]⟩
abbrev S128x16384 : Shape := ⟨2, ![128, 16384]⟩
abbrev S1x16384 : Shape := ⟨2, ![1, 16384]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S128x3, .f32⟩
  | .local _ .vmem, ⟨1, _⟩ => ⟨S128x3, .f32⟩
  | .local _ .vmem, ⟨2, _⟩ => ⟨S16384x3, .f32⟩
  | .local _ .vmem, ⟨3, _⟩ => ⟨S128, .f32⟩
  | .local _ .vmem, ⟨4, _⟩ => ⟨S128, .f32⟩
  | .local _ .vmem, ⟨5, _⟩ => ⟨S128x3, .f32⟩
  | .local _ .vmem, ⟨6, _⟩ => ⟨S128x3, .f32⟩
  | .local _ .vmem, ⟨7, _⟩ => ⟨S16384x3, .f32⟩
  | .local _ .vmem, ⟨8, _⟩ => ⟨S128, .f32⟩
  | .local _ .vmem, ⟨9, _⟩ => ⟨S128, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x3_S128x3_0_0 : ∀ a, (![0, 0] : Fin 2 → Nat) a + S128x3.size a ≤ S128x3.size a
  h_S128x3 : 0 < S128x3.numel
  inb_S16384x3_S16384x3_0_0 : ∀ a, (![0, 0] : Fin 2 → Nat) a + S16384x3.size a ≤ S16384x3.size a
  h_S16384x3 : 0 < S16384x3.numel
  reduces_S128x3_S128 : S128x3.Reduces [1] S128
  shapeCasts_S128_S128x1 : S128.ShapeCasts S128x1
  reduces_S16384x3_S16384 : S16384x3.Reduces [1] S16384
  shapeCasts_S16384_S1x16384 : S16384.ShapeCasts S1x16384
  broadcasts_S128x1_S128x16384 : S128x1.Broadcasts S128x16384
  broadcasts_S1x16384_S128x16384 : S1x16384.Broadcasts S128x16384
  reduces_S128x16384_S128 : S128x16384.Reduces [1] S128
  inb_S128_S128_0 : ∀ a, (![0] : Fin 1 → Nat) a + S128.size a ≤ S128.size a
  h_S128 : 0 < S128.numel
  reducesTo_S16384_S_d0 : S16384.ReducesTo [0] S_
  h_S_ : 0 < S_.numel
  dot_S128x3_S16384x3_S128x16384_1_1_0_0_n_n_wf : DotDims.WF S128x3 S16384x3 S128x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S16384x3.size a
  hwx0_0 : ∀ i : grid0.Coords, EltTy.bits .f32 = 32 ∨ (Rect.block (s := S16384x3) S128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x3.size a ≤ S16384x3.size a
  hwx0_1 : ∀ i : grid0.Coords, EltTy.bits .f32 = 32 ∨ (Rect.block (s := S16384x3) S16384x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S16384.size a
  hwx0_2 : ∀ i : grid0.Coords, EltTy.bits .f32 = 32 ∨ (Rect.block (s := S16384) S128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x3.size a ≤ S16384x3.size a
  hwx1_0 : ∀ i : grid1.Coords, EltTy.bits .f32 = 32 ∨ (Rect.block (s := S16384x3) S128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x3.size a ≤ S16384x3.size a
  hwx1_1 : ∀ i : grid1.Coords, EltTy.bits .f32 = 32 ∨ (Rect.block (s := S16384x3) S16384x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S16384.size a
  hwx1_2 : ∀ i : grid1.Coords, EltTy.bits .f32 = 32 ∨ (Rect.block (s := S16384) S128.size (cc1_transform_2 i) (hinb1_2 i)).WholeWords (EltTy.packing .f32)

variable [Facts₀]

def dot_S128x3_S16384x3_S128x16384_1_1_0_0_n_n : DotDims S128x3 S16384x3 S128x16384 where
  lhsContracting := [1]
  rhsContracting := [1]
  lhsNonContracting := [0]
  rhsNonContracting := [0]
  lhsBatch := []
  rhsBatch := []
  wf := dot_S128x3_S16384x3_S128x16384_1_1_0_0_n_n_wf

abbrev win0_0 : Pipeline.Window sig grid0 :=
  Pipeline.Window.ofSpec (Memref.whole main_arg0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S3x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.PointCloud.lean ====
/-
  The mathematics of the two programs, free of either program's text.

  A point is a triple of extended reals. For two points x and y the clamped squared distance is
      d(x, y) = max ((|x|² + |y|²) − 2 · ⟨x, y⟩, 0),
  with |x|² = Σ_d x_d · x_d and ⟨x, y⟩ = Σ_d x_d · y_d, the constants 2 and 0 being the f32 words the programs
  carry. For a cloud X of N points and a cloud Y of P points, the nearest-neighbour distance of point n of X is the
  minimum, from +∞, of d(X_n, Y_p) over all p. Since + and · commute on the extended reals (infinities included),
  d is symmetric; no finiteness is needed anywhere.
-/
import Idealize.ShloMosaic.PureOps.Ideal.Laws
import Idealize.ShloMosaic.Lib.ValueIdx

noncomputable section

namespace Cert.Chamfer

open Idealize.ShloMosaic Idealize.ShloMosaic.ValueIdx

/-- The f32 word of 2.0, as both programs carry it. -/
abbrev two : EReal := Ideal.ofBits .f32 0x40000000#32
/-- The f32 word of 0.0 that clamps a distance from below. -/
abbrev floor0 : EReal := Ideal.ofBits .f32 0x00000000#32
/-- The f32 word of +∞ a minimum starts from. -/
abbrev ceil : EReal := Ideal.ofBits .f32 0x7F800000#32

/-- |x|², the sum of the squares of a point's three coordinates. -/
def sqNorm (x : Fin 3 → EReal) : EReal := ∑ d : Fin 3, x d * x d

/-- ⟨x, y⟩, the inner product of two points. -/
def inner (x y : Fin 3 → EReal) : EReal := ∑ d : Fin 3, x d * y d

/-- The clamped squared distance max ((|x|² + |y|²) − 2⟨x, y⟩, 0). -/
def dist (x y : Fin 3 → EReal) : EReal := max ((sqNorm x + sqNorm y) - two * inner x y) floor0

theorem inner_comm (x y : Fin 3 → EReal) : inner x y = inner y x :=
  Finset.sum_congr rfl fun d _ => mul_comm (x d) (y d)

/-- The clamped squared distance is symmetric: addition and multiplication commute on every extended real. -/
theorem dist_comm (x y : Fin 3 → EReal) : dist x y = dist y x := by
  unfold dist
  rw [add_comm (sqNorm x) (sqNorm y), inner_comm x y]

/-- Point n of a cloud stored as an [N, 3] array. -/
def row {N : Nat} (X : (⟨2, ![N, 3]⟩ : Shape).Idx → EReal) (n : Fin N) : Fin 3 → EReal := fun d => X (ix2 n d)

/-- The distance from point n of X to the nearest point of Y: the minimum over p, from +∞, of d(X_n, Y_p). -/
@[irreducible] def nearest {N P : Nat} (X : (⟨2, ![N, 3]⟩ : Shape).Idx → EReal) (Y : (⟨2, ![P, 3]⟩ : Shape).Idx → EReal) (n : Fin N) : EReal :=
  (Finset.univ : Finset (Fin P)).fold min ceil fun p => dist (row X n) (row Y p)

/-- The nearest-neighbour distance reads X only through its point n and Y only through its points. -/
theorem nearest_congr {N N' P : Nat} (X : (⟨2, ![N, 3]⟩ : Shape).Idx → EReal) (X' : (⟨2, ![N', 3]⟩ : Shape).Idx → EReal)
    (Y Y' : (⟨2, ![P, 3]⟩ : Shape).Idx → EReal) (n : Fin N) (n' : Fin N')
    (hX : row X n = row X' n') (hY : ∀ p, row Y p = row Y' p) : nearest X Y n = nearest X' Y' n' := by
  unfold nearest
  exact Finset.fold_congr fun p _ => by rw [hX, hY p]

/-- The same minimum taken down a column of the distance table: over the points n of X, of d(X_n, Y_p), is the
    nearest-neighbour distance of Y's point p among X. -/
theorem fold_col_eq_nearest {N P : Nat} (X : (⟨2, ![N, 3]⟩ : Shape).Idx → EReal) (Y : (⟨2, ![P, 3]⟩ : Shape).Idx → EReal)
    (p : Fin P) :
    ((Finset.univ : Finset (Fin N)).fold min ceil fun n => dist (row X n) (row Y p)) = nearest Y X p := by
  unfold nearest
  exact Finset.fold_congr fun n _ => dist_comm _ _

/-- The nearest-neighbour distances of a whole cloud, as an array over its points. -/
def nearestAll {N P : Nat} (X : (⟨2, ![N, 3]⟩ : Shape).Idx → EReal) (Y : (⟨2, ![P, 3]⟩ : Shape).Idx → EReal) :
    (⟨1, ![N]⟩ : Shape).Idx → EReal := fun i => nearest X Y (i 0)

/-- What both programs do with the two arrays of nearest-neighbour distances, on the host: each array is summed from the
    zero word and divided by the word of 16384, and the two means are added. One function of the two arrays, so the
    programs' results agree as soon as the arrays do. -/
def meanSum (a b : FVec Ideal ⟨1, ![16384]⟩ .f32) (h : (⟨1, ![16384]⟩ : Shape).ReducesTo [0] ⟨0, ![]⟩)
    (hu : 0 < (⟨0, ![]⟩ : Shape).numel) : FVec Ideal ⟨0, ![]⟩ .f32 :=
  addf (F := Ideal)
    (Host.divf (F := Ideal) (Host.reduceAdd (F := Ideal) a (constant (F := Ideal) ⟨0, ![]⟩ .f32 0x00000000#32) h hu)
      (constant (F := Ideal) ⟨0, ![]⟩ .f32 0x46800000#32))
    (Host.divf (F := Ideal) (Host.reduceAdd (F := Ideal) b (constant (F := Ideal) ⟨0, ![]⟩ .f32 0x00000000#32) h hu)
      (constant (F := Ideal) ⟨0, ![]⟩ .f32 0x46800000#32))

end Cert.Chamfer

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.Body.lean ====
/-
  What one grid point of either pallas_call stores, entry by entry.

  The body loads a block A of 128 points and the whole other cloud B of 16384 points, and stores, at row r, the
  lane minimum from +∞ of the table whose entry (r, p) is
      max ((|A_r|² + |B_p|²) − 2 · ⟨A_r, B_p⟩, 0):
  the row norms are lane sums of the squared blocks (one kept as a column [128, 1], the other as a row [1, 16384],
  both broadcast over the table), and the cross term is the product of A with B, each contracted over its second
  axis, into a zero accumulator. So row r of the store is the nearest-neighbour distance of A's point r among B.
  Both calls run the same body; only the operands are exchanged.
-/
import proofs.«154986_j76175539962211_1_alg».proof.Proof.Gen.KernelIdeal.Skeleton
import proofs.«154986_j76175539962211_1_alg».proof.Proof.PointCloud
import proofs.«154986_j76175539962211_1_alg».proof.Proof.LibDotRows
import Idealize.ShloMosaic.Lib.ValueLayout
import Idealize.ShloMosaic.Lib.Pipeline.Value
import Idealize.ShloMosaic.PureOps.Ideal.Laws

noncomputable section

namespace Cert.Chamfer

open Idealize.ShloMosaic Idealize.ShloMosaic.ValueIdx

variable {α : Type}

/-- An [a] array cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an [N, 3] array, at row r: the sum of the row's three entries. -/
theorem laneSum_apply {N : ℕ} (v : FVec Ideal ⟨2, ![N, 3]⟩ .f32) (h : (⟨2, ![N, 3]⟩ : Shape).Reduces [1] ⟨1, ![N]⟩)
    (hφ : FKind.Formats .f32) (hacc : (0x00000000#32 : BitVec 32) = FKind.add.neutral .f32 hφ) (r : Fin N) :
    multiReduction .add [1] ⟨1, ![N]⟩ v 0x00000000#32 h hφ hacc (ix1 r) = ∑ k : Fin 3, v (ix2 r k) := by
  refine (Ideal.multiReduction_add_single v _ h hφ hacc (ix1 r)).trans ?_
  exact Finset.sum_congr rfl fun k _ => congrArg v (funext fun a => Fin.ext (by
    match a with
    | ⟨0, _⟩ => rfl
    | ⟨1, _⟩ => rfl))

end Cert.Chamfer

namespace Cert.KernelIdeal.Body

open Idealize.ShloMosaic Idealize.ShloMosaic.ValueIdx Cert.KernelIdeal Cert.KernelIdeal.Gen Cert.Chamfer

/-- Entry (r, p) of the body's distance table is the clamped squared distance of A's point r and B's point p. -/
theorem entry_apply (x0 : FVec Ideal S128x3 .f32) (x1 : FVec Ideal S16384x3 .f32)
    (hφ : FKind.Formats .f32) (hacc : (0x00000000#32 : BitVec 32) = FKind.add.neutral .f32 hφ) (r : Fin 128) (p : Fin 16384) :
    maximumf
        (subf
          (addf
            (broadcastTo S128x16384
              (shapeCast S128x1 (multiReduction .add [1] S128 (mulf x0 x0) 0x00000000#32 reduces_S128x3_S128 hφ hacc)
                shapeCasts_S128_S128x1)
              broadcasts_S128x1_S128x16384)
            (broadcastTo S128x16384
              (shapeCast S1x16384 (multiReduction .add [1] S16384 (mulf x1 x1) 0x00000000#32 reduces_S16384x3_S16384 hφ hacc)
                shapeCasts_S16384_S1x16384)
              broadcasts_S1x16384_S128x16384))
          (mulf (broadcast S128x16384 (FloatOps.ofBits .f32 0x40000000#32))
            (matmul dot_S128x3_S16384x3_S128x16384_1_1_0_0_n_n none x0 x1 (constant S128x16384 .f32 0x00000000#32))))
        (broadcast S128x16384 (FloatOps.ofBits .f32 0x00000000#32)) (ix2 r p)
      = dist (row x0 r) (row x1 p) := by
  rw [maximumf_apply, subf_apply, addf_apply, mulf_apply, broadcast_apply, broadcast_apply,
    broadcastTo_a1_ab_apply, shapeCast_a_a1_apply, broadcastTo_1b_ab_apply, shapeCast_a_1a_apply,
    laneSum_apply, laneSum_apply, Cert.Lib.matmul_rr_apply _ rfl rfl rfl rfl rfl rfl]
  rfl

/-- Row r of what the first call's body stores: the minimum over the table's row, from +∞, taken lane by lane in any
    order, is the nearest-neighbour distance of A's point r among B. -/
theorem pay0_apply (x0 : FVec Ideal S128x3 .f32) (x1 : FVec Ideal S16384x3 .f32) (r : Fin 128) :
    k0_pay1 (F := Ideal) x0 x1 (ix1 r) = nearest x0 x1 r := by
  unfold k0_pay1
  dsimp only
  refine (multiReduction_minimumf_eq_fold _ _ _ _ _ _).trans ?_
  refine (reduces_S128x16384_S128.fold_filter_drop_single _ _ _ _).trans ?_
  unfold nearest
  refine Finset.fold_congr fun p _ => ?_
  have hl : reduces_S128x16384_S128.lift (ix1 r) p = ix2 r p := funext fun a => Fin.ext (by
    match a with
    | ⟨0, _⟩ => rfl
    | ⟨1, _⟩ => rfl)
  show maximumf _ _ (reduces_S128x16384_S128.lift (ix1 r) p) = _
  rw [hl]
  exact entry_apply x0 x1 _ _ r p

/-- The second call's body is the same function of its two loads. -/
theorem pay1_apply (x0 : FVec Ideal S128x3 .f32) (x1 : FVec Ideal S16384x3 .f32) (r : Fin 128) :
    k1_pay1 (F := Ideal) x0 x1 (ix1 r) = nearest x0 x1 r :=
  pay0_apply x0 x1 r

end Cert.KernelIdeal.Body

end
-- ==== Proof.Arrays0.lean ====
/-
  From the blocks each grid point writes back to the whole output array of the first call.

  The call walks 128 grid points. At point t it is handed rows 128·t … 128·t + 127 of the cloud it tiles and the whole
  of the other cloud, and writes back entries 128·t … 128·t + 127 of its output. Since the body stores at row r the
  nearest-neighbour distance of the block's point r, and the 128 blocks tile the 16384 entries, the output array ends
  holding the nearest-neighbour distance of every point of the tiled cloud among the other one. Stated at any contents
  V of the buffers at the call's entry.
-/
import proofs.«154986_j76175539962211_1_alg».proof.Proof.Gen.KernelIdeal.Frame
import proofs.«154986_j76175539962211_1_alg».proof.Proof.Body
import Idealize.ShloMosaic.Lib.Pipeline.Value

set_option maxRecDepth 16384

noncomputable section

namespace Cert.KernelIdeal.Arrays0

open Idealize.ShloMosaic Idealize.ShloMosaic.TcCoe Idealize.ShloMosaic.ValueIdx Idealize.SL.Sem
open Cert.KernelIdeal Cert.KernelIdeal.Gen Cert.Chamfer
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- The cloud this call tiles, and the cloud it keeps whole, as the call finds them. -/
abbrev tiled0 (c : Dev nD) : FVec Ideal S16384x3 .f32 := V c main_arg0
abbrev whole0 (c : Dev nD) : FVec Ideal S16384x3 .f32 := V c main_arg1

/-- The index maps, decided over the grid: at point t the tiled cloud's block is block t of its rows, the whole cloud's
    block is the whole array, and the output's block is block t. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = t.val :=
  (by decide +kernel : ∀ t : Fin grid0.N, _)

/-- What point t writes back is block t of the nearest-neighbour distances of the tiled cloud among the whole one:
    row r of the point's store is the distance of the block's point r, which is point 128·t + r of the cloud. -/
theorem flushed0_eq (c : Dev nD) (t : Fin cfg0.N) :
    (dat0 V c).flushed 2 t = ((cfg0.win 2).blk t).view.read (Elt Ideal) (nearestAll (tiled0 V c) (whole0 V c)) := by
  show (cfg0.win 2).cut (grid0.coords t) ((dat0 V c).after 2 t) = _
  rw [after0_2]
  unfold out0_2
  rw [View.canon_unit_zero hz1]
  simp only [View.ld_unit_zero (S := S128x3) hz2, View.ld_unit_zero (S := S16384x3) hz2]
  funext j
  obtain ⟨e0, e1, e2, e3, e4⟩ := idx0 t
  show k0_pay1 (F := Ideal) (iblk0 V c 0 t) (iblk0 V c 1 t) j
    = nearest (tiled0 V c) (whole0 V c) ((((cfg0.win 2).blk t).view.emb j) 0)
  refine (congrArg (k0_pay1 (F := Ideal) (iblk0 V c 0 t) (iblk0 V c 1 t)) (eq_ix1 (n := 128) j)).trans ?_
  refine (Body.pay0_apply (iblk0 V c 0 t) (iblk0 V c 1 t) (j 0)).trans ?_
  refine nearest_congr _ _ _ _ _ _ ?_ ?_
  · funext d
    show V c main_arg0 (((cfg0.win 0).blk t).view.emb (ix2 (j 0) d)) = V c main_arg0 (ix2 ((((cfg0.win 2).blk t).view.emb j) 0) d)
    refine congrArg (V c main_arg0) (funext fun a => Fin.ext ?_)
    match a with
    | ⟨0, _⟩ =>
      show win0_0.index t (0 : Fin 2) * 128 + 1 * (j 0).val = win0_2.index t (0 : Fin 1) * 128 + 1 * (j 0).val
      omega
    | ⟨1, _⟩ =>
      show win0_0.index t (1 : Fin 2) * 3 + 1 * d.val = d.val
      omega
  · intro p
    funext d
    show V c main_arg1 (((cfg0.win 1).blk t).view.emb (ix2 p d)) = V c main_arg1 (ix2 p d)
    refine congrArg (V c main_arg1) (funext fun a => Fin.ext ?_)
    match a with
    | ⟨0, _⟩ =>
      show win0_1.index t (0 : Fin 2) * 16384 + 1 * p.val = p.val
      omega
    | ⟨1, _⟩ =>
      show win0_1.index t (1 : Fin 2) * 3 + 1 * d.val = d.val
      omega

/-- An index of the output array is in point t's block iff it lies in the block's range of 128 entries. -/
theorem mem_blk0 (t : Fin cfg0.N) (i : S16384.Idx) :
    i ∈ ((cfg0.win 2).blk t).view.set ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Every entry i of the output array is written back by the point i / 128. -/
theorem cover0 (i : S16384.Idx) : ∃ t : Fin cfg0.N, (cfg0.win 2).flush t = true ∧ i ∈ ((cfg0.win 2).blk t).view.set := by
  have hi : (i 0).val < 16384 := (i 0).isLt
  refine ⟨⟨(i 0).val / 128, by rw [show cfg0.N = 128 from N_0]; omega⟩, flush0_2 _, ?_⟩
  rw [mem_blk0]
  intro a
  obtain ⟨-, -, -, -, e4⟩ := idx0 ⟨(i 0).val / 128, by rw [show cfg0.N = 128 from N_0]; omega⟩
  match a with
  | ⟨0, _⟩ =>
    show win0_2.index _ (0 : Fin 1) * 128 ≤ (i 0).val ∧ (i 0).val < win0_2.index _ (0 : Fin 1) * 128 + 128
    rw [e4]
    show (i 0).val / 128 * 128 ≤ (i 0).val ∧ (i 0).val < (i 0).val / 128 * 128 + 128
    omega

/-- The output array after the call: the nearest-neighbour distance of every point of the tiled cloud. -/
theorem final0 (c : Dev nD) : (dat0 V c).arrAt 2 cfg0.N = nearestAll (tiled0 V c) (whole0 V c) :=
  (dat0 V c).arrAt_eq_of_cover 2 _ (fun t _ => flushed0_eq V c t) cover0

end Cert.KernelIdeal.Arrays0

end
-- ==== Proof.Arrays1.lean ====
/-
  From the blocks each grid point writes back to the whole output array of the second call.

  The call walks 128 grid points. At point t it is handed rows 128·t … 128·t + 127 of the cloud it tiles and the whole
  of the other cloud, and writes back entries 128·t … 128·t + 127 of its output. Since the body stores at row r the
  nearest-neighbour distance of the block's point r, and the 128 blocks tile the 16384 entries, the output array ends
  holding the nearest-neighbour distance of every point of the tiled cloud among the other one. Stated at any contents
  V of the buffers at the call's entry.
-/
import proofs.«154986_j76175539962211_1_alg».proof.Proof.Gen.KernelIdeal.Frame
import proofs.«154986_j76175539962211_1_alg».proof.Proof.Body
import Idealize.ShloMosaic.Lib.Pipeline.Value

set_option maxRecDepth 16384

noncomputable section

namespace Cert.KernelIdeal.Arrays1

open Idealize.ShloMosaic Idealize.ShloMosaic.TcCoe Idealize.ShloMosaic.ValueIdx Idealize.SL.Sem
open Cert.KernelIdeal Cert.KernelIdeal.Gen Cert.Chamfer
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- The cloud this call tiles, and the cloud it keeps whole, as the call finds them. -/
abbrev tiled1 (c : Dev nD) : FVec Ideal S16384x3 .f32 := V c main_arg1
abbrev whole1 (c : Dev nD) : FVec Ideal S16384x3 .f32 := V c main_arg0

/-- The index maps, decided over the grid: at point t the tiled cloud's block is block t of its rows, the whole cloud's
    block is the whole array, and the output's block is block t. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = t.val :=
  (by decide +kernel : ∀ t : Fin grid1.N, _)

/-- What point t writes back is block t of the nearest-neighbour distances of the tiled cloud among the whole one:
    row r of the point's store is the distance of the block's point r, which is point 128·t + r of the cloud. -/
theorem flushed1_eq (c : Dev nD) (t : Fin cfg1.N) :
    (dat1 V c).flushed 2 t = ((cfg1.win 2).blk t).view.read (Elt Ideal) (nearestAll (tiled1 V c) (whole1 V c)) := by
  show (cfg1.win 2).cut (grid1.coords t) ((dat1 V c).after 2 t) = _
  rw [after1_2]
  unfold out1_2
  rw [View.canon_unit_zero hz1]
  simp only [View.ld_unit_zero (S := S128x3) hz2, View.ld_unit_zero (S := S16384x3) hz2]
  funext j
  obtain ⟨e0, e1, e2, e3, e4⟩ := idx1 t
  show k1_pay1 (F := Ideal) (iblk1 V c 0 t) (iblk1 V c 1 t) j
    = nearest (tiled1 V c) (whole1 V c) ((((cfg1.win 2).blk t).view.emb j) 0)
  refine (congrArg (k1_pay1 (F := Ideal) (iblk1 V c 0 t) (iblk1 V c 1 t)) (eq_ix1 (n := 128) j)).trans ?_
  refine (Body.pay1_apply (iblk1 V c 0 t) (iblk1 V c 1 t) (j 0)).trans ?_
  refine nearest_congr _ _ _ _ _ _ ?_ ?_
  · funext d
    show V c main_arg1 (((cfg1.win 0).blk t).view.emb (ix2 (j 0) d)) = V c main_arg1 (ix2 ((((cfg1.win 2).blk t).view.emb j) 0) d)
    refine congrArg (V c main_arg1) (funext fun a => Fin.ext ?_)
    match a with
    | ⟨0, _⟩ =>
      show win1_0.index t (0 : Fin 2) * 128 + 1 * (j 0).val = win1_2.index t (0 : Fin 1) * 128 + 1 * (j 0).val
      omega
    | ⟨1, _⟩ =>
      show win1_0.index t (1 : Fin 2) * 3 + 1 * d.val = d.val
      omega
  · intro p
    funext d
    show V c main_arg0 (((cfg1.win 1).blk t).view.emb (ix2 p d)) = V c main_arg0 (ix2 p d)
    refine congrArg (V c main_arg0) (funext fun a => Fin.ext ?_)
    match a with
    | ⟨0, _⟩ =>
      show win1_1.index t (0 : Fin 2) * 16384 + 1 * p.val = p.val
      omega
    | ⟨1, _⟩ =>
      show win1_1.index t (1 : Fin 2) * 3 + 1 * d.val = d.val
      omega

/-- An index of the output array is in point t's block iff it lies in the block's range of 128 entries. -/
theorem mem_blk1 (t : Fin cfg1.N) (i : S16384.Idx) :
    i ∈ ((cfg1.win 2).blk t).view.set ↔ ∀ a : Fin 1, win1_2.index t a * S128.size a ≤ (i a).val ∧ (i a).val < win1_2.index t a * S128.size a + S128.size a := by
  show i ∈ ((View.whole main_v1).slice (win1_2.rect t)).set ↔ _
  rw [View.set_slice_whole, Rect.mem_set_unit]
  exact Iff.rfl

/-- Every entry i of the output array is written back by the point i / 128. -/
theorem cover1 (i : S16384.Idx) : ∃ t : Fin cfg1.N, (cfg1.win 2).flush t = true ∧ i ∈ ((cfg1.win 2).blk t).view.set := by
  have hi : (i 0).val < 16384 := (i 0).isLt
  refine ⟨⟨(i 0).val / 128, by rw [show cfg1.N = 128 from N_1]; omega⟩, flush1_2 _, ?_⟩
  rw [mem_blk1]
  intro a
  obtain ⟨-, -, -, -, e4⟩ := idx1 ⟨(i 0).val / 128, by rw [show cfg1.N = 128 from N_1]; omega⟩
  match a with
  | ⟨0, _⟩ =>
    show win1_2.index _ (0 : Fin 1) * 128 ≤ (i 0).val ∧ (i 0).val < win1_2.index _ (0 : Fin 1) * 128 + 128
    rw [e4]
    show (i 0).val / 128 * 128 ≤ (i 0).val ∧ (i 0).val < (i 0).val / 128 * 128 + 128
    omega

/-- The output array after the call: the nearest-neighbour distance of every point of the tiled cloud. -/
theorem final1 (c : Dev nD) : (dat1 V c).arrAt 2 cfg1.N = nearestAll (tiled1 V c) (whole1 V c) :=
  (dat1 V c).arrAt_eq_of_cover 2 _ (fun t _ => flushed1_eq V c t) cover1

end Cert.KernelIdeal.Arrays1

end
-- ==== Proof.KernelValue.lean ====
/-
  The kernel program's result, read through its two calls and its host tail.

  The first call leaves in its output array the nearest-neighbour distance of every point of the first cloud among the
  second; the second call, entered with both clouds as launched (the first call reads them only) and the first output
  in place, leaves the distances of the second cloud's points among the first and touches nothing else. The host tail
  then sums each output from the zero word, divides by the word of 16384 and adds the two means.
-/
import proofs.«154986_j76175539962211_1_alg».proof.Proof.KernelRun
import proofs.«154986_j76175539962211_1_alg».proof.Proof.Arrays0
import proofs.«154986_j76175539962211_1_alg».proof.Proof.Arrays1
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.Chamfer
open Idealize.ShloMosaic.Pipeline (Dat Cfg Window)

variable (m : (ℓ : Loc nD τ sig) → Buf (Elt Ideal) ℓ) (ρ : Dev nD → PrngReg)

/-- The clouds as launched. -/
abbrev cloudX (c : Dev nD) : FVec Ideal S16384x3 .f32 := m ((c.tc : Thread nD τ).loc main_arg0)
abbrev cloudY (c : Dev nD) : FVec Ideal S16384x3 .f32 := m ((c.tc : Thread nD τ).loc main_arg1)

/-- The second call finds both clouds as launched: the first call only reads them. -/
theorem V1_arg0 (c : Dev nD) : V1 m ρ c main_arg0 = cloudX m c :=
  (W1_arr m ρ c 0).trans (((dat0 (V0 m ρ) c).arrAt_in 0 rfl _).trans (A_eq0 (V0 m ρ) c 0))
theorem V1_arg1 (c : Dev nD) : V1 m ρ c main_arg1 = cloudY m c :=
  (W1_arr m ρ c 1).trans (((dat0 (V0 m ρ) c).arrAt_in 1 rfl _).trans (A_eq0 (V0 m ρ) c 1))

/-- After both calls the first output array holds the first cloud's nearest-neighbour distances among the second. -/
theorem W2_v0 (c : Dev nD) : W2 m ρ c (Proc.devRef .tc main_v0) = nearestAll (cloudX m c) (cloudY m c) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = nearestAll (cloudX m c) (cloudY m c) := Arrays0.final0 (V0 m ρ) c

/-- And the second output array the second cloud's among the first. -/
theorem W2_v1 (c : Dev nD) : W2 m ρ c (Proc.devRef .tc main_v1) = nearestAll (cloudY m c) (cloudX m c) :=
  calc W2 m ρ c (Proc.devRef .tc main_v1)
    _ = (dat1 (V1 m ρ) c).arrAt 2 cfg1.N := W2_arr m ρ c 2
    _ = nearestAll (V1 m ρ c main_arg1) (V1 m ρ c main_arg0) := Arrays1.final1 (V1 m ρ) c
    _ = nearestAll (cloudY m c) (cloudX m c) := by rw [V1_arg0, V1_arg1]

/-- The host tail's result buffer: the two means added. -/
theorem W3_v6 (c : Dev nD) : W3 m ρ c (Proc.devRef .tc main_v6)
    = meanSum (W2 m ρ c (Proc.devRef .tc main_v0)) (W2 m ρ c (Proc.devRef .tc main_v1)) reducesTo_S16384_S_d0 h_S_ := by
  show StableHlo.after hostOps2 (W2 m ρ c) (Proc.devRef .tc main_v6) = _
  after_results
  rfl

/-- The program's result: the mean nearest-neighbour distance from the first cloud to the second plus the one back. -/
theorem result_eq (c : Dev nD) : W3 m ρ c (Proc.devRef .tc main_v6)
    = meanSum (nearestAll (cloudX m c) (cloudY m c)) (nearestAll (cloudY m c) (cloudX m c)) reducesTo_S16384_S_d0 h_S_ := by
  rw [W3_v6, W2_v0, W2_v1]

/-- The run, read: the result buffer at that value, the clouds unchanged. -/
theorem run : θ_run defs (onTc (τ := τ) (main (F := Ideal))) ⟨m, fun _ => 0, ρ⟩ (fun r => ∀ c : Dev nD,
      r.2.mem ((c.tc : Thread nD τ).loc main_v6)
        = meanSum (nearestAll (cloudX m c) (cloudY m c)) (nearestAll (cloudY m c) (cloudX m c)) reducesTo_S16384_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (RunValue.run_result (F := Ideal) m ρ)

end Cert.KernelIdeal.Result

end
-- ==== Proof.RefValue.lean ====
/-
  The reference, read: its distance table entry by entry, its two minima as nearest-neighbour distances, its result.

  The reference builds the whole 16384 × 16384 table with entry (n, p) = max ((|X_n|² + |Y_p|²) − 2⟨X_n, Y_p⟩, 0) —
  the norms are host sums from the zero word, which adds nothing; the cross term is X against the transposed Y, so its
  sum runs over the same products X_{n,k} · Y_{p,k} —, takes the minimum along each row (the nearest point of Y to each
  point of X) and along each column (the nearest point of X to each point of Y, by the symmetry of the distance), and
  adds the two means.
-/
import proofs.«154986_j76175539962211_1_alg».proof.Proof.Gen.ReferenceIdeal.Read
import proofs.«154986_j76175539962211_1_alg».proof.Proof.PointCloud
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.Chamfer

theorem red1 : S16384x16384.Reduces [1] S16384 := by decide
theorem red0 : S16384x16384.Reduces [0] S16384 := by decide

/-- Adding the f32 zero word on the left changes nothing. -/
theorem zero_word_add (s : EReal) : (FloatOps.ofBits (F := Ideal) .f32 0x00000000#32 : EReal) + s = s := by
  show Ideal.ofBits .f32 0x00000000#32 + s = s
  rw [Ideal.ofBits_zero_f32, zero_add]

/-- Entry (n, p) of the reference's distance table is the clamped squared distance of X's point n and Y's point p. -/
theorem table_apply (x0 x1 : FVec Ideal S16384x3 .f32) (n p : Fin 16384) :
    val_main_v15 (F := Ideal) x0 x1 (ix2 n p) = dist (row x0 n) (row x1 p) := by
  have i1 : ∀ k : Fin 3, idx_main_v1 (idx_main_v4 (idx_main_v6 (ix2 n p))) k = ix2 n k := fun k =>
    funext fun a => Fin.ext (by match a with | ⟨0, _⟩ => rfl | ⟨1, _⟩ => rfl)
  have i3 : ∀ k : Fin 3, idx_main_v3 (idx_main_v5 (idx_main_v7 (ix2 n p))) k = ix2 p k := fun k =>
    funext fun a => Fin.ext (by match a with | ⟨0, _⟩ => rfl | ⟨1, _⟩ => rfl)
  have il : ∀ k : Fin 3, lidx_main_v10 (ix2 n p) k = ix2 n k := fun k =>
    funext fun a => Fin.ext (by match a with | ⟨0, _⟩ => rfl | ⟨1, _⟩ => rfl)
  have ir : ∀ k : Fin 3, idx_main_v9 (ridx_main_v10 (ix2 n p) k) = ix2 p k := fun k =>
    funext fun a => Fin.ext (by match a with | ⟨0, _⟩ => rfl | ⟨1, _⟩ => rfl)
  rw [val_main_v15_apply, val_main_v13_apply, val_main_v8_apply, val_main_v6_apply, val_main_v4_apply, val_main_v1_apply,
    val_main_v7_apply, val_main_v5_apply, val_main_v3_apply, val_main_v12_apply, val_main_v11_apply, val_main_v10_apply,
    val_main_v14_apply]
  simp only [i1, i3, il, ir, val_main_v9_apply, val_main_v0_apply, val_main_v2_apply, val_main_cst_apply, val_main_cst_0_apply,
    val_main_cst_1_apply, val_main_cst_2_apply]
  rw [zero_word_add, zero_word_add]
  rfl

/-- The reference's minimum along the rows: the nearest-neighbour distance of every point of X among Y. -/
theorem rowMin_eq (x0 x1 : FVec Ideal S16384x3 .f32) : val_main_v16 (F := Ideal) x0 x1 = nearestAll x0 x1 := by
  funext i
  obtain ⟨n, rfl⟩ : ∃ n : Fin 16384, i = ix1 n := ⟨i 0, eq_ix1 i⟩
  unfold val_main_v16
  refine (Host.reduce_eq_fold_single FloatOps.minimumf _ _ reducesTo_S16384x16384_S16384_d1 red1 h_S_ (ix1 n)).trans ?_
  show _ = nearest x0 x1 n
  unfold nearest
  refine Finset.fold_congr fun p _ => ?_
  have hl : red1.lift (ix1 n) p = ix2 n p := funext fun a => Fin.ext (by
    match a with
    | ⟨0, _⟩ => rfl
    | ⟨1, _⟩ => rfl)
  show val_main_v15 (F := Ideal) x0 x1 (red1.lift (ix1 n) p) = _
  rw [hl]
  exact table_apply x0 x1 n p

/-- The reference's minimum down the columns: the nearest-neighbour distance of every point of Y among X. -/
theorem colMin_eq (x0 x1 : FVec Ideal S16384x3 .f32) : val_main_v17 (F := Ideal) x0 x1 = nearestAll x1 x0 := by
  funext i
  obtain ⟨q, rfl⟩ : ∃ q : Fin 16384, i = ix1 q := ⟨i 0, eq_ix1 i⟩
  unfold val_main_v17
  refine (Host.reduce_eq_fold_single FloatOps.minimumf _ _ reducesTo_S16384x16384_S16384_d0 red0 h_S_ (ix1 q)).trans ?_
  show _ = nearest x1 x0 q
  refine Eq.trans ?_ (fold_col_eq_nearest x0 x1 q)
  refine Finset.fold_congr fun n _ => ?_
  have hl : red0.lift (ix1 q) n = ix2 n q := funext fun a => Fin.ext (by
    match a with
    | ⟨0, _⟩ => rfl
    | ⟨1, _⟩ => rfl)
  show val_main_v15 (F := Ideal) x0 x1 (red0.lift (ix1 q) n) = _
  rw [hl]
  exact table_apply x0 x1 n q

/-- The reference's last operations are the two means added. -/
theorem tail_eq (x0 x1 : FVec Ideal S16384x3 .f32) :
    val_main_v22 (F := Ideal) x0 x1
      = meanSum (val_main_v16 (F := Ideal) x0 x1) (val_main_v17 (F := Ideal) x0 x1) reducesTo_S16384_S_d0 h_S_ := rfl

/-- The reference's result: the mean nearest-neighbour distance from X to Y plus the one from Y to X. -/
theorem result_eq (x0 x1 : FVec Ideal S16384x3 .f32) :
    val_main_v22 (F := Ideal) x0 x1 = meanSum (nearestAll x0 x1) (nearestAll x1 x0) reducesTo_S16384_S_d0 h_S_ := by
  rw [tail_eq, rowMin_eq, colMin_eq]

end Cert.ReferenceIdeal.RefValue

end
-- ==== Proof.lean ====
/-
  The certificate of a Chamfer-style loss between two clouds X and Y of 16384 points in three coordinates.

  Both programs compute  mean_n min_p d(X_n, Y_p) + mean_p min_n d(X_n, Y_p)  with the clamped squared distance
      d(x, y) = max ((|x|² + |y|²) − 2⟨x, y⟩, 0)
  (Proof/PointCloud.lean). The kernel program makes two calls of one body over 128 blocks of 128 points: the first
  tiles X against the whole of Y and leaves min_p d(X_n, Y_p) for every n, the second tiles Y against the whole of X and
  leaves min_n d(Y_p, X_n) for every p (Proof/Body.lean, Proof/Arrays0.lean, Proof/Arrays1.lean, Proof/KernelRun.lean,
  Proof/KernelValue.lean). The reference builds the whole table once and takes its minima along the rows and down the
  columns (Proof/RefValue.lean). The two column minima agree because d is symmetric — addition and multiplication
  commute on every extended real —, so no finiteness of the inputs is used for the values; every sum and every minimum
  is over the same set on both sides, and the means are the same host operations applied to equal arrays.
  The idealization rewrote nothing, so `preserves` is trivial.
-/
import proofs.«154986_j76175539962211_1_alg».proof.Defs
import proofs.«154986_j76175539962211_1_alg».proof.Proof.Gen.Kernel
import proofs.«154986_j76175539962211_1_alg».proof.Proof.Gen.Kernel.Frame
import proofs.«154986_j76175539962211_1_alg».proof.Proof.Gen.KernelIdeal
import proofs.«154986_j76175539962211_1_alg».proof.Proof.Gen.KernelIdeal.Frame
import proofs.«154986_j76175539962211_1_alg».proof.Proof.Gen.ReferenceIdeal
import proofs.«154986_j76175539962211_1_alg».proof.Proof.Gen.ReferenceIdeal.Run
import proofs.«154986_j76175539962211_1_alg».proof.Proof.Gen.ReferenceIdeal.Read
import proofs.«154986_j76175539962211_1_alg».proof.Proof.Gen.Pre_finite_inputs
import proofs.«154986_j76175539962211_1_alg».proof.Proof.KernelValue
import proofs.«154986_j76175539962211_1_alg».proof.Proof.RefValue
import Idealize.ShloMosaic.Adequacy
import Idealize.ShloMosaic.Init

noncomputable section

namespace Cert.Proof

open Idealize.ShloMosaic Idealize.SL.Sem Cert.Chamfer

/-- The reference terminates with its arguments unchanged: its run with the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the two clouds, both programs end with the sum of the two mean nearest-neighbour
    distances. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => meanSum (nearestAll (Cert.KernelIdeal.Result.cloudX m c) (Cert.KernelIdeal.Result.cloudY m c))
      (nearestAll (Cert.KernelIdeal.Result.cloudY m c) (Cert.KernelIdeal.Result.cloudX m c))
      Cert.KernelIdeal.Facts₀.reducesTo_S16384_S_d0 Cert.KernelIdeal.Facts₀.h_S_,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
